-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1200000 : Shape := ⟨1, ![1200000]⟩
abbrev S256x64 : Shape := ⟨2, ![256, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg2 : IVec S1200000 32) (main_v13 : IVec S_ 1) (main_v15 : IVec S1200000 1) (main_c_5 : IVec S_ 32) : IVec S_ 1 :=
  let main_v16 : IVec S1200000 32 := broadcastInDim S1200000 ![] bcast_S_S1200000 main_c_5
  let main_v17 : IVec S1200000 1 := cmpi .slt main_arg2 main_v16
  let main_v18 : IVec S1200000 1 := andi main_v15 main_v17
  let main_c_6 : IVec S_ 1 := constantI S_ 1 1#1
  let main_v19 : IVec S_ 1 := (fun x v => Host.reduce IntOp.andi x v reducesTo_S1200000_S_d0 h_S_) main_v18 main_c_6
  let main_v20 : IVec S_ 1 := andi main_v13 main_v19
  main_v20

def fn {F : FTy → Type} [FloatOps F] (main_arg0 : FVec F S100000x256 .f32) (main_arg1 : IVec S1200000 32) (main_arg2 : IVec S1200000 32) (main_arg3 : FVec F S1200000 .f32) (main_arg4 : FVec F S256x64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1200000 .f32 := Host.absf main_arg3
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_c_4 : IVec S_ 32 := constantI S_ 32 4294867296#32
  let main_v14 : IVec S1200000 32 := broadcastInDim S1200000 ![] bcast_S_S1200000 main_c_4
  let main_v15 : IVec S1200000 1 := cmpi .sge main_arg2 main_v14
  let main_c_5 : IVec S_ 32 := constantI S_ 32 100000#32
  fn_part1 (F := F) main_arg2 main_v13 main_v15 main_c_5
-- ==== Kernel.lean ====
abbrev S100000x256 : Shape := ⟨2, ![100000, 256]⟩
abbrev S1200000 : Shape := ⟨1, ![1200000]⟩
abbrev S256x64 : Shape := ⟨2, ![256, 64]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S1200000x1 : Shape := ⟨2, ![1200000, 1]⟩
abbrev S1 : Shape := ⟨1, ![1]⟩
abbrev S1x1 : Shape := ⟨2, ![1, 1]⟩
abbrev S1200000x64 : Shape := ⟨2, ![1200000, 64]⟩

abbrev nBuf : Space → Nat
  | .hbm => 39
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S1200000, .i32⟩
  | .hbm, ⟨2, _⟩ => ⟨S1200000, .i32⟩
  | .hbm, ⟨3, _⟩ => ⟨S1200000, .f32⟩
  | .hbm, ⟨4, _⟩ => ⟨S256x64, .f32⟩
  | .hbm, ⟨5, _⟩ => ⟨S100000x64, .f32⟩
  | .hbm, ⟨6, _⟩ => ⟨S_, .i32⟩
  | .hbm, ⟨7, _⟩ => ⟨S1200000, .i32⟩
  | .hbm, ⟨8, _⟩ => ⟨S1200000, .i1⟩
  | .hbm, ⟨9, _⟩ => ⟨S_, .i32⟩
  | .hbm, ⟨10, _⟩ => ⟨S1200000, .i32⟩
  | .hbm, ⟨11, _⟩ => ⟨S1200000, .i32⟩
  | .hbm, ⟨12, _⟩ => ⟨S1200000, .i32⟩
  | .hbm, ⟨13, _⟩ => ⟨S1200000x1, .i32⟩
  | .hbm, ⟨14, _⟩ => ⟨S1, .i32⟩
  | .hbm, ⟨15, _⟩ => ⟨S_, .i32⟩
  | .hbm, ⟨16, _⟩ => ⟨S1200000x1, .i32⟩
  | .hbm, ⟨17, _⟩ => ⟨S1200000x1, .i1⟩
  | .hbm, ⟨18, _⟩ => ⟨S1x1, .i32⟩
  | .hbm, ⟨19, _⟩ => ⟨S1200000x1, .i32⟩
  | .hbm, ⟨20, _⟩ => ⟨S1200000x1, .i1⟩
  | .hbm, ⟨21, _⟩ => ⟨S1200000x1, .i1⟩
  | .hbm, ⟨22, _⟩ => ⟨S_, .i1⟩
  | .hbm, ⟨23, _⟩ => ⟨S1200000, .i1⟩
  | .hbm, ⟨24, _⟩ => ⟨S1200000x64, .f32⟩
  | .hbm, ⟨25, _⟩ => ⟨S1200000x64, .i1⟩
  | .hbm, ⟨26, _⟩ => ⟨S_, .f32⟩
  | .hbm, ⟨27, _⟩ => ⟨S1200000x64, .f32⟩
  | .hbm, ⟨28, _⟩ => ⟨S1200000x64, .f32⟩
  | .hbm, ⟨29, _⟩ => ⟨S1200000x1, .f32⟩
  | .hbm, ⟨30, _⟩ => ⟨S1200000x64, .f32⟩
  | .hbm, ⟨31, _⟩ => ⟨S1200000x64, .f32⟩
  | .hbm, ⟨32, _⟩ => ⟨S_, .f32⟩
  | .hbm, ⟨33, _⟩ => ⟨S100000x64, .f32⟩
  | .hbm, ⟨34, _⟩ => ⟨S1200000x1, .i32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call1_cst : Ref sig .tc := ⟨.hbm, 36, rfl⟩
abbrev main_call1_v0 : Ref sig .tc := ⟨.hbm, 37, rfl⟩
abbrev main_v8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  dot_S5000x256_S256x64_S5000x64_1_0_0_1_n_n_wf : DotDims.WF S5000x256 S256x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S1200000 : Shape := ⟨1, ![1200000]⟩
abbrev S256x64 : Shape := ⟨2, ![256, 64]⟩
abbrev S100000x64 : Shape := ⟨2, ![100000, 64]⟩
abbrev S1200000x1 : Shape := ⟨2, ![1200000, 1]⟩
abbrev S_ : Shape := ⟨0, ![]⟩
abbrev S1200000x64 : Shape := ⟨2, ![1200000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1200000, .i32⟩
  | .hbm, ⟨2, _⟩ => ⟨S1200000, .i32⟩
  | .hbm, ⟨3, _⟩ => ⟨S1200000, .f32⟩
  | .hbm, ⟨4, _⟩ => ⟨S256x64, .f32⟩
  | .hbm, ⟨5, _⟩ => ⟨S100000x64, .f32⟩
  | .hbm, ⟨6, _⟩ => ⟨S1200000x1, .f32⟩
  | .hbm, ⟨7, _⟩ => ⟨S_, .i32⟩
  | .hbm, ⟨8, _⟩ => ⟨S1200000, .i32⟩
  | .hbm, ⟨9, _⟩ => ⟨S1200000, .i1⟩
  | .hbm, ⟨10, _⟩ => ⟨S_, .i32⟩
  | .hbm, ⟨11, _⟩ => ⟨S1200000, .i32⟩
  | .hbm, ⟨12, _⟩ => ⟨S1200000, .i32⟩
  | .hbm, ⟨13, _⟩ => ⟨S1200000, .i32⟩
  | .hbm, ⟨14, _⟩ => ⟨S1200000x1, .i32⟩
  | .hbm, ⟨15, _⟩ => ⟨S1200000x64, .f32⟩
  | .hbm, ⟨16, _⟩ => ⟨S1200000x64, .f32⟩
  | .hbm, ⟨17, _⟩ => ⟨S1200000x64, .f32⟩
  | .hbm, ⟨18, _⟩ => ⟨S_, .f32⟩
  | .hbm, ⟨19, _⟩ => ⟨S100000x64, .f32⟩
  | .hbm, ⟨20, _⟩ => ⟨S1200000x1, .i32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.TakeMask.lean ====
import proofs.«408995_j1589137899808_1_alg».proof.Proof.Gen.KernelIdeal
import proofs.«408995_j1589137899808_1_alg».proof.Proof.Gen.Pre_finite_inputs
import Idealize.ShloMosaic.Lib.ReduceAll
import Idealize.ShloMosaic.Lib.ValueIdx
import Idealize.ShloMosaic.Lib.Pipeline.Value

noncomputable section

open Idealize.ShloMosaic

namespace Cert.KernelIdeal.Take

open Cert.KernelIdeal Cert.KernelIdeal.Facts₀ Cert.KernelIdeal.Facts

/-! ## One index word -/

theorem ofBool_eq_one (b : Bool) : BitVec.ofBool b = 1#1 ↔ b = true := by cases b <;> decide
theorem ofBool_eq_one_lit (b : Bool) : BitVec.ofBool b = 1 ↔ b = true := by cases b <;> decide

/-- Python's wrap of an index word in [-100000, 100000): a negative word moved up by 100000 and a non-negative
    word left alone both land in [0, 99999], so both range tests of the take pass. -/
theorem wrapped_in_range (c : BitVec 32)
    (hlo : IntOp.cmpi .sge c 4294867296#32 = 1#1) (hhi : IntOp.cmpi .slt c 100000#32 = 1#1) :
    IntOp.andi
      (IntOp.cmpi .sge (Scalar.select (IntOp.cmpi .slt c 0#32) (IntOp.addi c 100000#32) c) 0#32)
      (IntOp.cmpi .sle (Scalar.select (IntOp.cmpi .slt c 0#32) (IntOp.addi c 100000#32) c) 99999#32) = 1#1 := by
  unfold IntOp.cmpi at hlo hhi
  rw [ofBool_eq_one] at hlo hhi
  simp only [BitVec.slt, BitVec.sle, decide_eq_true_eq] at hlo hhi
  have h1 : (4294867296#32 : BitVec 32).toInt = -100000 := by decide
  have h2 : (100000#32 : BitVec 32).toInt = 100000 := by decide
  have h3 : (0#32 : BitVec 32).toInt = 0 := by decide
  have h4 : (99999#32 : BitVec 32).toInt = 99999 := by decide
  rw [h1] at hlo; rw [h2] at hhi
  rw [IntOp.andi_eq_one]
  unfold Scalar.select IntOp.cmpi IntOp.addi
  by_cases hneg : c.toInt < 0
  · have hs : BitVec.ofBool (c.slt 0#32) = 1 := by
      rw [ofBool_eq_one_lit]; simp only [BitVec.slt, h3, decide_eq_true_eq]; exact hneg
    rw [if_pos hs]
    have ht : (c + 100000#32).toInt = c.toInt + 100000 := by
      rw [BitVec.toInt_add, h2]
      exact Int.bmod_eq_of_le (by omega) (by omega)
    constructor
    · rw [ofBool_eq_one]; simp only [BitVec.sle, h3, ht, decide_eq_true_eq]; omega
    · rw [ofBool_eq_one]; simp only [BitVec.sle, h4, ht, decide_eq_true_eq]; omega
  · have hs : ¬ BitVec.ofBool (c.slt 0#32) = 1 := by
      rw [ofBool_eq_one_lit]; simp only [BitVec.slt, h3, decide_eq_true_eq]; exact hneg
    rw [if_neg hs]
    constructor
    · rw [ofBool_eq_one]; simp only [BitVec.sle, h3, decide_eq_true_eq]; omega
    · rw [ofBool_eq_one]; simp only [BitVec.sle, h4, decide_eq_true_eq]; omega

/-! ## The column of wrapped indices and the take's in-bounds mask -/

/-- Edge e's column index, wrapped Python-style, as the [E, 1] start-index column of the gather. -/
def wrapped (col : IVec S1200000 32) : IVec S1200000x1 32 :=
  broadcastInDim S1200000x1 ![0] bcast_S1200000_S1200000x1_0 (select (cmpi .slt col (broadcastInDim S1200000 ![] bcast_S_S1200000 (constantI S_ 32 0#32))) (addi col (broadcastInDim S1200000 ![] bcast_S_S1200000 (constantI S_ 32 100000#32))) col)

/-- The take's mask over [E, 64]: row e is set when edge e's wrapped index lies in [0, 99999]. -/
def inBounds (col : IVec S1200000 32) : IVec S1200000x64 1 :=
  broadcastInDim S1200000x64 ![0] bcast_S1200000_S1200000x64_0 (Host.reduce IntOp.andi (andi (cmpi .sge (wrapped col) (broadcastInDim S1200000x1 ![] bcast_S_S1200000x1 (constantI S_ 32 0#32))) (cmpi .sle (wrapped col) (broadcastInDim S1200000x1 ![0, 1] bcast_S1x1_S1200000x1_0_1 (broadcastInDim S1x1 ![1] bcast_S1_S1x1_1 (constantI S1 32 99999#32))))) (constantI S_ 1 1#1) reducesTo_S1200000x1_S1200000_d1 h_S_)

/-- Edge k of the [E, 1] column as an index of the [E] vector. -/
abbrev edgeOf (k : S1200000x1.Idx) : S1200000.Idx := fun a => match a with
  | ⟨0, _⟩ => ⟨(k 0).val, (k 0).isLt⟩

theorem wrapped_apply (col : IVec S1200000 32) (k : S1200000x1.Idx) :
    wrapped col k = Scalar.select (IntOp.cmpi .slt (col (edgeOf k)) 0#32) (IntOp.addi (col (edgeOf k)) 100000#32) (col (edgeOf k)) := by
  unfold wrapped
  rw [broadcastInDim_apply _ bcast_S1200000_S1200000x1_0 _ k (edgeOf k) (fun a => match a with
    | ⟨0, _⟩ => by show (k 0).val = if (1200000 : Nat) = 1 then 0 else (k 0).val; rw [if_neg (by decide)])]
  rfl

/-- A reduction by `and` of an all-ones array from 1 is 1. -/
theorem reduce_andi_ones {s t u : Shape} {axes : List (Fin s.rank)} (init : u.Idx → BitVec 1) (h : s.ReducesTo axes t)
    (hu : 0 < u.numel) (hinit : init (Shape.Idx.first hu) = 1#1) (j : t.Idx) :
    Host.reduce IntOp.andi (fun _ : s.Idx => 1#1) init h hu j = 1#1 := by
  rw [Host.reduce_eq_foldl, hinit]
  generalize (((List.finRange s.numel).map s.rowMajor.symm).filter fun i => h.drop i = j) = l
  induction l with
  | nil => rfl
  | cons a l ih =>
    show List.foldl _ (IntOp.andi 1#1 1#1) l = 1#1
    rw [show IntOp.andi (1#1 : BitVec 1) 1#1 = 1#1 from by decide]
    exact ih

/-- With every column index in [-100000, 100000) the take's mask is set everywhere. -/
theorem inBounds_true (col : IVec S1200000 32)
    (h : ∀ e : S1200000.Idx, IntOp.cmpi .sge (col e) 4294867296#32 = 1#1 ∧ IntOp.cmpi .slt (col e) 100000#32 = 1#1) :
    inBounds col = fun _ => 1#1 := by
  have hP : andi (cmpi .sge (wrapped col) (broadcastInDim S1200000x1 ![] bcast_S_S1200000x1 (constantI S_ 32 0#32))) (cmpi .sle (wrapped col) (broadcastInDim S1200000x1 ![0, 1] bcast_S1x1_S1200000x1_0_1 (broadcastInDim S1x1 ![1] bcast_S1_S1x1_1 (constantI S1 32 99999#32)))) = fun _ => 1#1 := by
    funext k
    obtain ⟨hlo, hhi⟩ := h (edgeOf k)
    show IntOp.andi (IntOp.cmpi .sge (wrapped col k) 0#32) (IntOp.cmpi .sle (wrapped col k) 99999#32) = 1#1
    rw [wrapped_apply]
    exact wrapped_in_range _ hlo hhi
  unfold inBounds
  rw [hP]
  funext j
  unfold broadcastInDim
  exact reduce_andi_ones _ _ _ rfl _

/-- A select under an all-ones mask is its first branch. -/
theorem select_ones {α : Type} {s : Shape} (a b : s.Idx → α) : select (fun _ : s.Idx => 1#1) a b = a :=
  funext fun i => by
    show Scalar.select (1#1) (a i) (b i) = a i
    unfold Scalar.select
    exact if_pos rfl

/-! ## The precondition read back -/

instance : Subsingleton Cert.Pre_finite_inputs.S_.Idx := ⟨fun a b => funext fun d => d.elim0⟩

/-- The added conjunct of the precondition, element by element: every column index is in [-100000, 100000). -/
theorem col_range_of_pre {F : FTy → Type} [FloatOps F] (a0 : FVec F Cert.Pre_finite_inputs.S100000x256 .f32)
    (a1 a2 : IVec Cert.Pre_finite_inputs.S1200000 32) (a3 : FVec F Cert.Pre_finite_inputs.S1200000 .f32)
    (a4 : FVec F Cert.Pre_finite_inputs.S256x64 .f32)
    (h : Cert.Pre_finite_inputs.fn (F := F) a0 a1 a2 a3 a4 = fun _ => 1#1) (e : Cert.Pre_finite_inputs.S1200000.Idx) :
    IntOp.cmpi .sge (a2 e) 4294867296#32 = 1#1 ∧ IntOp.cmpi .slt (a2 e) 100000#32 = 1#1 := by
  have h0 := congrFun h ValueIdx.ix0
  dsimp only [Cert.Pre_finite_inputs.fn, Cert.Pre_finite_inputs.fn_part1] at h0
  obtain ⟨-, h19⟩ := IntOp.andi_eq_one.1 h0
  have he := Host.reduce_andi_all _ _ _ _ _ h19 e
  exact IntOp.andi_eq_one.1 he

end Cert.KernelIdeal.Take

end
-- ==== Proof.KernelValue.lean ====
import proofs.«408995_j1589137899808_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Support

open Cert.KernelIdeal Cert.KernelIdeal.Gen Idealize.ShloMosaic.ValueIdx

/-- The dense product x · w over the extended reals: entry (r, q) is the sum over k of x[r, k] · w[k, q]. -/
def product (x : S100000x256.Idx → EReal) (w : S256x64.Idx → EReal) : S100000x64.Idx → EReal :=
  fun i => ∑ k : Fin 256, x (ix2 (n0 := 100000) (n1 := 256) (i 0) k) * w (ix2 (n0 := 256) (n1 := 64) k (i 1))

/-! ## One block's product -/

theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_contr (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_contr (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- What the body stores, at entry (p, q) of its block: the narrowing of both operands is the identity on the
    extended reals, and the product into a zero accumulator is the plain sum over the 256 shared columns. -/
theorem block_product (x0 : Vec Ideal S5000x256 .f32) (x1 : Vec Ideal S256x64 .f32) (j : S5000x64.Idx) :
    k0_pay1 (F := Ideal) x0 x1 j
      = ∑ k : Fin 256, (x0 (ix2 (n0 := 5000) (n1 := 256) (j 0) k) : EReal) * x1 (ix2 (n0 := 256) (n1 := 64) k (j 1)) := by
  unfold k0_pay1
  refine (Ideal.matmul_constant_zero_apply dot_S5000x256_S256x64_S5000x64_1_0_0_1_n_n none _ _ j).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = ix2 (n0 := 5000) (n1 := 256) (j 0) k := funext fun a => Fin.ext (by
    match a with
    | ⟨0, _⟩ => exact lhs_row _ _
    | ⟨1, _⟩ => exact (lhs_contr _ _).trans hk)
  have er : dot_S5000x256_S256x64_S5000x64_1_0_0_1_n_n.rhsIdx j ((ValueIdx.contrEquiv1 dot_S5000x256_S256x64_S5000x64_1_0_0_1_n_n 256 rfl rfl).symm k) = ix2 (n0 := 256) (n1 := 64) k (j 1) := funext fun a => Fin.ext (by
    match a with
    | ⟨0, _⟩ => exact (rhs_contr _ _).trans hk
    | ⟨1, _⟩ => exact rhs_col _ _)
  rw [el, er]
  rfl

/-! ## From the blocks to the whole table -/

variable (m : (ℓ : Loc nD τ sig) → Buf (Elt Ideal) ℓ)

theorem zero_offsets : (![0, 0] : Fin 2 → Nat) = fun _ => 0 := funext fun a => by fin_cases a <;> rfl

/-- The printed index maps over the twenty grid points: the x window and the output window sit on the same block of
    rows, in column block 0; the weight window stays on its one block. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of 5000 rows is some point's. -/
theorem row_block_onto : ∀ q : Fin 20, ∃ t : Fin cfg0.N, win0_2.index t = ![q.val, 0] :=
  (by decide +kernel : ∀ q : Fin 20, ∃ t : Fin grid0.N, win0_2.index t = ![q.val, 0])

/-- What point t writes back is block t of the product of the two argument arrays as the region finds them. -/
theorem flushed_eq (c : Dev nD) (t : Fin cfg0.N) :
    (dats m 0 c).flushed 2 t
      = ((cfg0.win 2).blk t).view.read (Elt Ideal) (product (V m c main_arg0) (V m c main_arg4)) := by
  show (cfg0.win 2).cut (grid0.coords t) ((dats m 0 c).after 2 t) = _
  rw [after0_2]
  unfold out0_2
  rw [View.canon_unit_zero zero_offsets]
  simp only [View.ld_unit_zero (S := S5000x256) zero_offsets, View.ld_unit_zero (S := S256x64) zero_offsets]
  obtain ⟨e0, e1, e2, e3, e4, e5⟩ := index_maps t
  funext j
  show k0_pay1 (F := Ideal) (iblk m c 0 t) (iblk m c 1 t) j = product (V m c main_arg0) (V m c main_arg4) (((cfg0.win 2).blk t).view.emb j)
  refine (block_product (iblk m c 0 t) (iblk m c 1 t) j).trans ?_
  unfold product
  refine Finset.sum_congr rfl fun k _ => ?_
  have hx : (iblk m c 0 t : Vec Ideal S5000x256 .f32) (ix2 (n0 := 5000) (n1 := 256) (j 0) k)
      = V m c main_arg0 (ix2 (n0 := 100000) (n1 := 256) ((((cfg0.win 2).blk t).view.emb j) 0) k) := by
    show V m c main_arg0 (((cfg0.win 0).blk t).view.emb (ix2 (n0 := 5000) (n1 := 256) (j 0) k)) = _
    refine congrArg (V m c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hw : (iblk m c 1 t : Vec Ideal S256x64 .f32) (ix2 (n0 := 256) (n1 := 64) k (j 1))
      = V m c main_arg4 (ix2 (n0 := 256) (n1 := 64) k ((((cfg0.win 2).blk t).view.emb j) 1)) := by
    show V m c main_arg4 (((cfg0.win 1).blk t).view.emb (ix2 (n0 := 256) (n1 := 64) k (j 1))) = _
    refine congrArg (V m c main_arg4) (funext fun a => Fin.ext ?_)
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [hx, hw]

/-- An entry of the table is in point t's block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The twenty row blocks tile the table: row r lies in the block of point r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := row_block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output table holds the product of the two argument arrays. -/
theorem table_eq (c : Dev nD) :
    (dats m 0 c).arrAt 2 cfg0.N = product (m ((c : Thread nD τ).loc main_arg0)) (m ((c : Thread nD τ).loc main_arg4)) :=
  (dats m 0 c).arrAt_eq_of_cover 2 (product (V m c main_arg0) (V m c main_arg4)) (fun t _ => flushed_eq m c t) covered

end Cert.KernelIdeal.Support

end
-- ==== Proof.KernelRun.lean ====
import proofs.«408995_j1589137899808_1_alg».proof.Proof.Gen.KernelIdeal.Frame
import proofs.«408995_j1589137899808_1_alg».proof.Proof.TakeMask
import proofs.«408995_j1589137899808_1_alg».proof.Proof.KernelValue
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Take

open Cert.KernelIdeal Cert.KernelIdeal.Facts₀ Cert.KernelIdeal.Facts

variable {F : FTy → Type} [FloatOps F]

/-- jnp.take with its fill: row e of the table S at edge e's wrapped index where the mask is set, the fill pattern elsewhere. -/
def takeFill (S : FVec F S100000x64 .f32) (col : IVec S1200000 32) : FVec F S1200000x64 .f32 :=
  select (inBounds col) (Host.gather gather_S100000x64_S1200000x1_S1200000x64_1_0_n_n_0_1_164 S (wrapped col)) (broadcastInDim S1200000x64 ![] bcast_S_S1200000x64 (constant S_ .f32 0x7FC00000#32))

/-- The sparse product's second half: the gathered rows G scaled by the edge values, added into the rows the edges
    name from zero, clamped below at zero. -/
def scaleScatterRelu (G : FVec F S1200000x64 .f32) (row : IVec S1200000 32) (val : FVec F S1200000 .f32) : FVec F S100000x64 .f32 :=
  maximumf (Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 row) (mulf (broadcastInDim S1200000x64 ![0, 1] bcast_S1200000x1_S1200000x64_0_1 (broadcastInDim S1200000x1 ![0] bcast_S1200000_S1200000x1_0 val)) G)) (broadcastInDim S100000x64 ![] bcast_S_S100000x64 (constant S_ .f32 0x00000000#32))

/-- With every column index in [-100000, 100000) the fill is never taken: the take is the plain gather. -/
theorem takeFill_in_range (S : FVec F S100000x64 .f32) (col : IVec S1200000 32)
    (h : ∀ e : S1200000.Idx, IntOp.cmpi .sge (col e) 4294867296#32 = 1#1 ∧ IntOp.cmpi .slt (col e) 100000#32 = 1#1) :
    takeFill S col = Host.gather gather_S100000x64_S1200000x1_S1200000x64_1_0_n_n_0_1_164 S (wrapped col) := by
  unfold takeFill
  rw [inBounds_true col h]
  exact select_ones _ _

end Cert.KernelIdeal.Take

namespace Cert.KernelIdeal.Result

open Cert.KernelIdeal Cert.KernelIdeal.Gen Cert.KernelIdeal.Take Cert.KernelIdeal.Support

variable (m : (ℓ : Loc nD τ sig) → Buf (Elt Ideal) ℓ) (ρ : Dev nD → PrngReg)

/-- The buffers as the region leaves them: its three arrays at what the run computed, every other buffer as launched. -/
abbrev left (c : Dev nD) : Valuation τ sig (Elt Ideal) :=
  Pipeline.withArrays (cfgs 0).spec c (V0 m c) (fun w => (dats m 0 c).arrAt w (cfgs 0).N)

/-- A value carried into a typed buffer and read back is itself. -/
theorem ofBuf_toBuf {T : BufTy} (x : StableHlo.TRef sig T) (v : T.Contents (Elt Ideal)) : x.ofBuf (x.toBuf v) = v := by
  obtain ⟨r, h1, h2, h3⟩ := x
  subst h1
  rfl
theorem toBuf_v1 (h1 h2 h3) (v : (⟨S1200000x64, .f32⟩ : BufTy).Contents (Elt Ideal)) :
    (StableHlo.TRef.of (T := ⟨S1200000x64, .f32⟩) main_v1 h1 h2 h3).toBuf v = v := rfl
theorem ofBuf_v7 (h1 h2 h3) (v : (⟨S100000x64, .f32⟩ : BufTy).Contents (Elt Ideal)) :
    (StableHlo.TRef.of (T := ⟨S100000x64, .f32⟩) main_v7 h1 h2 h3).ofBuf v = v := rfl
theorem toBuf_v8 (h1 h2 h3) (v : (⟨S100000x64, .f32⟩ : BufTy).Contents (Elt Ideal)) :
    (StableHlo.TRef.of (T := ⟨S100000x64, .f32⟩) main_v8 h1 h2 h3).toBuf v = v := rfl
theorem ofBuf_v0 (h1 h2 h3) (v : (⟨S100000x64, .f32⟩ : BufTy).Contents (Elt Ideal)) :
    (StableHlo.TRef.of (T := ⟨S100000x64, .f32⟩) main_v0 h1 h2 h3).ofBuf v = v := rfl
theorem ofBuf_arg2 (h1 h2 h3) (v : (⟨S1200000, .i32⟩ : BufTy).Contents (Elt Ideal)) :
    (StableHlo.TRef.of (T := ⟨S1200000, .i32⟩) main_arg2 h1 h2 h3).ofBuf v = v := rfl

set_option maxHeartbeats 8000000 in
/-- The host lines after the region, composed, from any contents of the buffers: the result buffer holds the
    take-with-fill of the table in the region's output buffer at the wrapped column indices, scaled, scatter-added
    and clamped. -/
theorem tail_from (Fv : Valuation τ sig (Elt Ideal)) :
    StableHlo.after (hostOps1 ++ hostOps1_1 ++ hostOps1_2) Fv (Proc.devRef .tc main_v8)
      = scaleScatterRelu (F := Ideal) (takeFill (F := Ideal) (Fv (Proc.devRef .tc main_v0)) (Fv (Proc.devRef .tc main_arg2)))
          (Fv (Proc.devRef .tc main_arg1)) (Fv (Proc.devRef .tc main_arg3)) := by
  unfold scaleScatterRelu takeFill inBounds wrapped
  simp only [hostOps1, hostOps1_1, hostOps1_2, List.append_nil, List.cons_append, List.nil_append]
  after_results
  simp only [ofBuf_toBuf, toBuf_v1, ofBuf_v7, toBuf_v8, ofBuf_v0, ofBuf_arg2]

/-- The same of the buffers as the region leaves them. -/
theorem tail_eq (c : Dev nD) :
    Pipeline.afterTail₀ cfgs (dats m) 0 (V0 m) [hostOps1, hostOps1_1, hostOps1_2] c main_v8
      = scaleScatterRelu (F := Ideal) (takeFill (F := Ideal) (left m c (Proc.devRef .tc main_v0)) (left m c (Proc.devRef .tc main_arg2)))
          (left m c (Proc.devRef .tc main_arg1)) (left m c (Proc.devRef .tc main_arg3)) := by
  unfold Pipeline.afterTail₀
  simp only [List.flatten_cons, List.flatten_nil, List.append_nil]
  exact tail_from (left m c)

/-- The region's output table, as the host lines find it: the dense product of the two argument arrays. -/
theorem left_table (c : Dev nD) :
    (left m c (Proc.devRef .tc main_v0) : FVec Ideal S100000x64 .f32)
      = product (m ((c : Thread nD τ).loc main_arg0)) (m ((c : Thread nD τ).loc main_arg4)) :=
  (Pipeline.withArrays_arr spec0 launch0.win.arr_inj c (V0 m c) _ 2).trans (table_eq m c)

/-- The index and value arguments are no array of the region: the host lines find them as launched. -/
theorem left_arg1 (c : Dev nD) : left m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem left_arg2 (c : Dev nD) : left m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem left_arg3 (c : Dev nD) : left m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

/-- The result buffer after the run, with every column index in [-100000, 100000): the rows of x · w gathered at the
    wrapped column indices, scaled by the edge values, added into the rows the edges name, clamped at zero. -/
theorem result_eq (c : Dev nD)
    (hc : ∀ e : S1200000.Idx, IntOp.cmpi .sge (m ((c : Thread nD τ).loc main_arg2) e) 4294867296#32 = 1#1
      ∧ IntOp.cmpi .slt (m ((c : Thread nD τ).loc main_arg2) e) 100000#32 = 1#1) :
    Pipeline.afterTail₀ cfgs (dats m) 0 (V0 m) [hostOps1, hostOps1_1, hostOps1_2] c main_v8
      = scaleScatterRelu (F := Ideal)
          (Host.gather gather_S100000x64_S1200000x1_S1200000x64_1_0_n_n_0_1_164
            (product (m ((c : Thread nD τ).loc main_arg0)) (m ((c : Thread nD τ).loc main_arg4)))
            (wrapped (m ((c : Thread nD τ).loc main_arg2))))
          (m ((c : Thread nD τ).loc main_arg1)) (m ((c : Thread nD τ).loc main_arg3)) := by
  rw [tail_eq, left_table, left_arg1, left_arg2, left_arg3, takeFill_in_range _ _ hc]

/-- The kernel's run, read: the result at that term, the five arguments unchanged. -/
theorem run (hcol : ∀ (c : Dev nD) (e : S1200000.Idx), IntOp.cmpi .sge (m ((c : Thread nD τ).loc main_arg2) e) 4294867296#32 = 1#1
      ∧ IntOp.cmpi .slt (m ((c : Thread nD τ).loc main_arg2) e) 100000#32 = 1#1) :
    θ_run defs (onTc (τ := τ) (main (F := Ideal))) ⟨m, fun _ => 0, ρ⟩ fun r => ∀ c : Dev nD,
      r.2.mem ((c.tc : Thread nD τ).loc main_v8)
        = scaleScatterRelu (F := Ideal)
            (Host.gather gather_S100000x64_S1200000x1_S1200000x64_1_0_n_n_0_1_164
              (product (m ((c.tc : Thread nD τ).loc main_arg0)) (m ((c.tc : Thread nD τ).loc main_arg4)))
              (wrapped (m ((c.tc : Thread nD τ).loc main_arg2))))
            (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (result_eq m c (hcol c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c)))⟩)
    (run_main m ρ)

end Cert.KernelIdeal.Result

end
-- ==== Proof.RefValue.lean ====
import proofs.«408995_j1589137899808_1_alg».proof.Defs
import proofs.«408995_j1589137899808_1_alg».proof.Proof.Gen.ReferenceIdeal.Run
import proofs.«408995_j1589137899808_1_alg».proof.Proof.Gen.ReferenceIdeal.Read

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- The reference's dense product on the extended reals: entry (r, q) is the sum over k of x[r, k] · w[k, q]. -/
theorem dot_eq (x0 : FVec Ideal S100000x256 .f32) (x4 : FVec Ideal S256x64 .f32) :
    Host.dotGeneral dot_S100000x256_S256x64_S100000x64_1_0_0_1_n_n none x0 x4
      = fun i : S100000x64.Idx => ∑ k : Fin 256, (x0 (ix2 (n0 := 100000) (n1 := 256) (i 0) k) : EReal) * x4 (ix2 (n0 := 256) (n1 := 64) k (i 1)) := by
  funext i
  refine (val_main_v0_apply x0 x4 i).trans ?_
  refine Finset.sum_congr rfl fun k _ => ?_
  have el : lidx_main_v0 i k = ix2 (n0 := 100000) (n1 := 256) (i 0) k :=
    funext fun a => by match a with | ⟨0, _⟩ => rfl | ⟨1, _⟩ => rfl
  have er : ridx_main_v0 i k = ix2 (n0 := 256) (n1 := 64) k (i 1) :=
    funext fun a => by match a with | ⟨0, _⟩ => rfl | ⟨1, _⟩ => rfl
  rw [el, er]

end Cert.ReferenceIdeal.RefValue

end
-- ==== Proof.lean ====
/- x · w as a tiled product on the chip, then a gather of its rows by column index, a scaling by the edge values,
   a scatter-add by row index and a clamp at zero — against the same computation written with a plain product and
   numpy-style indexing.

   On the extended reals the two dense products agree entry by entry: the kernel's narrowing of both operands is the
   identity there, and a block of 5000 rows of x times the whole of w, accumulated from zero, is the sum over the 256
   shared columns that the reference's product is; the twenty row blocks tile the table. No law of arithmetic beyond
   that re-indexing is used, so finiteness of the inputs is never opened.

   The two gathers differ off the table only: both wrap a negative column index by adding the row count, but the
   kernel's take then fills a row whose wrapped index is outside [0, 99999] with a not-a-number pattern, where the
   reference's indexing clamps the index into the table. With every column index in [-100000, 100000) — the added
   conjunct of the precondition, the range in which the reference's indexing is in bounds — the wrapped index is in
   [0, 99999], the take's mask is set everywhere, its select returns the gathered rows, and from there on both programs
   apply the same scaling, scatter-add and clamp to equal arrays. -/
import proofs.«408995_j1589137899808_1_alg».proof.Defs
import proofs.«408995_j1589137899808_1_alg».proof.Proof.Gen.Kernel
import proofs.«408995_j1589137899808_1_alg».proof.Proof.Gen.Kernel.Skeleton
import proofs.«408995_j1589137899808_1_alg».proof.Proof.Gen.Kernel.Launch
import proofs.«408995_j1589137899808_1_alg».proof.Proof.Gen.Kernel.Points
import proofs.«408995_j1589137899808_1_alg».proof.Proof.Gen.Kernel.Frame
import proofs.«408995_j1589137899808_1_alg».proof.Proof.Gen.KernelIdeal
import proofs.«408995_j1589137899808_1_alg».proof.Proof.Gen.KernelIdeal.Skeleton
import proofs.«408995_j1589137899808_1_alg».proof.Proof.Gen.KernelIdeal.Launch
import proofs.«408995_j1589137899808_1_alg».proof.Proof.Gen.KernelIdeal.Points
import proofs.«408995_j1589137899808_1_alg».proof.Proof.Gen.KernelIdeal.Frame
import proofs.«408995_j1589137899808_1_alg».proof.Proof.Gen.ReferenceIdeal
import proofs.«408995_j1589137899808_1_alg».proof.Proof.Gen.ReferenceIdeal.Run
import proofs.«408995_j1589137899808_1_alg».proof.Proof.Gen.ReferenceIdeal.Read
import proofs.«408995_j1589137899808_1_alg».proof.Proof.Gen.Pre_finite_inputs
import proofs.«408995_j1589137899808_1_alg».proof.Proof.TakeMask
import proofs.«408995_j1589137899808_1_alg».proof.Proof.KernelValue
import proofs.«408995_j1589137899808_1_alg».proof.Proof.KernelRun
import proofs.«408995_j1589137899808_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end holding relu of the scatter-add, by row index, of the edge values times the rows of x · w
    gathered at the wrapped column indices. -/
theorem algebraic : Cert.algebraic_KernelIdeal_ReferenceIdeal := by
  intro m ρ m' ρ' hpre hagree
  refine ⟨_, Cert.KernelIdeal.Result.run m ρ
    (fun c e => Cert.KernelIdeal.Take.col_range_of_pre _ _ _ _ _ (hpre c) e), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4, Cert.ReferenceIdeal.RefValue.dot_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
